-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩

class Facts : Prop where
  bcast_S_S1600000x28 : S_.BroadcastsInDim S1600000x28 (![] : Fin 0 → Fin S1600000x28.rank)
  reducesTo_S1600000x28_S_d0_1 : S1600000x28.ReducesTo [0, 1] S_
  h_S_ : 0 < S_.numel
  bcast_S_S500000x28 : S_.BroadcastsInDim S500000x28 (![] : Fin 0 → Fin S500000x28.rank)
  reducesTo_S500000x28_S_d0_1 : S500000x28.ReducesTo [0, 1] S_

variable [Facts]

def fn {F : FTy → Type} [FloatOps F] (main_arg0 : FVec F S1600000x28 .f32) (main_arg1 : IVec S500000 32) (main_arg2 : FVec F S500000x28 .f32) : IVec S_ 1 :=
  let main_v0 : FVec F S1600000x28 .f32 := Host.absf main_arg0
  let main_cst : FVec F S_ .f32 := constant S_ .f32 0x7F800000#32
  let main_v1 : FVec F S1600000x28 .f32 := broadcastInDim S1600000x28 ![] bcast_S_S1600000x28 main_cst
  let main_v2 : IVec S1600000x28 1 := cmpf .olt main_v0 main_v1
  let main_c : IVec S_ 1 := constantI S_ 1 1#1
  let main_v3 : IVec S_ 1 := (fun x v => Host.reduce IntOp.andi x v reducesTo_S1600000x28_S_d0_1 h_S_) main_v2 main_c
  let main_v4 : FVec F S500000x28 .f32 := Host.absf main_arg2
  let main_cst_0 : FVec F S_ .f32 := constant S_ .f32 0x7F800000#32
  let main_v5 : FVec F S500000x28 .f32 := broadcastInDim S500000x28 ![] bcast_S_S500000x28 main_cst_0
  let main_v6 : IVec S500000x28 1 := cmpf .olt main_v4 main_v5
  let main_c_1 : IVec S_ 1 := constantI S_ 1 1#1
  let main_v7 : IVec S_ 1 := (fun x v => Host.reduce IntOp.andi x v reducesTo_S500000x28_S_d0_1 h_S_) main_v6 main_c_1
  let main_v8 : IVec S_ 1 := andi main_v3 main_v7
  main_v8
-- ==== Kernel.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S4000x28 : Shape := ⟨2, ![4000, 28]⟩

abbrev nBuf : Space → Nat
  | .hbm => 36
  | .vmem => 4
  | .smem => 0
  | _ => 0

abbrev bufTy : (tb : Table) → Fin (tcTables nBuf tb) → BufTy
  | .hbm, ⟨0, _⟩ => ⟨S1600000x28, .f32⟩
  | .hbm, ⟨1, _⟩ => ⟨S500000, .i32⟩
  | .hbm, ⟨2, _⟩ => ⟨S500000x28, .f32⟩
  | .hbm, ⟨3, _⟩ => ⟨S_, .i32⟩
  | .hbm, ⟨4, _⟩ => ⟨S500000, .i32⟩
  | .hbm, ⟨5, _⟩ => ⟨S500000, .i1⟩
  | .hbm, ⟨6, _⟩ => ⟨S_, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S1600000x28, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S1, .i32⟩
  | .hbm, ⟨21, _⟩ => ⟨S_, .i32⟩
  | .hbm, ⟨22, _⟩ => ⟨S500000x1, .i32⟩
  | .hbm, ⟨23, _⟩ => ⟨S500000x1, .i1⟩
  | .hbm, ⟨24, _⟩ => ⟨S1x1, .i32⟩
  | .hbm, ⟨25, _⟩ => ⟨S500000x1, .i32⟩
  | .hbm, ⟨26, _⟩ => ⟨S500000x1, .i1⟩
  | .hbm, ⟨27, _⟩ => ⟨S500000x1, .i1⟩
  | .hbm, ⟨28, _⟩ => ⟨S_, .i1⟩
  | .hbm, ⟨29, _⟩ => ⟨S500000, .i1⟩
  | .hbm, ⟨30, _⟩ => ⟨S500000x28, .f32⟩
  | .hbm, ⟨31, _⟩ => ⟨S500000x28, .i1⟩
  | .hbm, ⟨32, _⟩ => ⟨S_, .f32⟩
  | .hbm, ⟨33, _⟩ => ⟨S500000x28, .f32⟩
  | .hbm, ⟨34, _⟩ => ⟨S500000x28, .f32⟩
  | .hbm, ⟨35, _⟩ => ⟨S500000x28, .f32⟩
  | .local _ .vmem, ⟨0, _⟩ => ⟨S4000x28, .f32⟩
  | .local _ .vmem, ⟨1, _⟩ => ⟨S4000x28, .f32⟩
  | .local _ .vmem, ⟨2, _⟩ => ⟨S4000x28, .f32⟩
  | .local _ .vmem, ⟨3, _⟩ => ⟨S4000x28, .f32⟩
  | _, _ => ⟨S1600000x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x28_0 : S500000.BroadcastsInDim S500000x28 (![0] : Fin 1 → Fin S500000x28.rank)
  bcast_S_S500000x28 : S_.BroadcastsInDim S500000x28 (![] : Fin 0 → Fin S500000x28.rank)
  inb_S4000x28_S4000x28_0_0 : ∀ a, (![0, 0] : Fin 2 → Nat) a + S4000x28.size a ≤ S4000x28.size a
  h_S4000x28 : 0 < S4000x28.numel
  shapeCasts_S4000x28_S4000x28 : S4000x28.ShapeCasts S4000x28
  scatter_S1600000x28_S500000x1_S500000x28_1_0_0_1_wf : ScatterDims.WF S1600000x28 S500000x1 S500000x28 [1] [0] [0] 1
  gather_S1600000x28_S500000x1_S500000x28_1_0_n_n_0_1_128_wf : GatherDims.WF S1600000x28 S500000x1 S500000x28 [1] [0] [] [0] [] 1 ![1, 28]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x28.size a ≤ S500000x28.size a
  hwx0_0 : ∀ i : grid0.Coords, EltTy.bits .f32 = 32 ∨ (Rect.block (s := S500000x28) S4000x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x28.size a ≤ S500000x28.size a
  hwx0_1 : ∀ i : grid0.Coords, EltTy.bits .f32 = 32 ∨ (Rect.block (s := S500000x28) S4000x28.size (cc0_transform_1 i) (hinb0_1 i)).WholeWords (EltTy.packing .f32)

variable [Facts₀]

def scatter_S1600000x28_S500000x1_S500000x28_1_0_0_1 : ScatterDims S1600000x28 S500000x1 S500000x28 where
  updateWindowDims := [1]
  insertedWindowDims := [0]
  scatterDimsToOperandDims := [0]
  indexVectorDim := 1
  wf := scatter_S1600000x28_S500000x1_S500000x28_1_0_0_1_wf
def gather_S1600000x28_S500000x1_S500000x28_1_0_n_n_0_1_128 : GatherDims S1600000x28 S500000x1 S500000x28 where
  offsetDims := [1]
  collapsedSliceDims := [0]
  operandBatchingDims := []
  startIndicesBatchingDims := []
  startIndexMap := [0]
  indexVectorDim := 1
  sliceSizes := ![1, 28]
  wf := gather_S1600000x28_S500000x1_S500000x28_1_0_n_n_0_1_128_wf

abbrev win0_0 : Pipeline.Window sig grid0 :=
  Pipeline.Window.ofSpec (Memref.whole main_v7) S4000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x28.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩
abbrev S500000x1 : Shape := ⟨2, ![500000, 1]⟩
abbrev S1 : Shape := ⟨1, ![1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S1600000x28, .f32⟩
  | .hbm, ⟨1, _⟩ => ⟨S500000, .i32⟩
  | .hbm, ⟨2, _⟩ => ⟨S500000x28, .f32⟩
  | .hbm, ⟨3, _⟩ => ⟨S_, .i32⟩
  | .hbm, ⟨4, _⟩ => ⟨S500000, .i32⟩
  | .hbm, ⟨5, _⟩ => ⟨S500000, .i1⟩
  | .hbm, ⟨6, _⟩ => ⟨S_, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S1600000x28, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S1, .i32⟩
  | .hbm, ⟨21, _⟩ => ⟨S_, .i32⟩
  | .hbm, ⟨22, _⟩ => ⟨S500000x1, .i32⟩
  | .hbm, ⟨23, _⟩ => ⟨S500000x1, .i1⟩
  | .hbm, ⟨24, _⟩ => ⟨S1x1, .i32⟩
  | .hbm, ⟨25, _⟩ => ⟨S500000x1, .i32⟩
  | .hbm, ⟨26, _⟩ => ⟨S500000x1, .i1⟩
  | .hbm, ⟨27, _⟩ => ⟨S500000x1, .i1⟩
  | .hbm, ⟨28, _⟩ => ⟨S_, .i1⟩
  | .hbm, ⟨29, _⟩ => ⟨S500000, .i1⟩
  | .hbm, ⟨30, _⟩ => ⟨S500000x28, .f32⟩
  | .hbm, ⟨31, _⟩ => ⟨S500000x28, .i1⟩
  | .hbm, ⟨32, _⟩ => ⟨S_, .f32⟩
  | .hbm, ⟨33, _⟩ => ⟨S500000x28, .f32⟩
  | .hbm, ⟨34, _⟩ => ⟨S500000x28, .f32⟩
  | _, _ => ⟨S1600000x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x28_0 : S500000.BroadcastsInDim S500000x28 (![0] : Fin 1 → Fin S500000x28.rank)
  bcast_S_S500000x28 : S_.BroadcastsInDim S500000x28 (![] : Fin 0 → Fin S500000x28.rank)
  scatter_S1600000x28_S500000x1_S500000x28_1_0_0_1_wf : ScatterDims.WF S1600000x28 S500000x1 S500000x28 [1] [0] [0] 1
  gather_S1600000x28_S500000x1_S500000x28_1_0_n_n_0_1_128_wf : GatherDims.WF S1600000x28 S500000x1 S500000x28 [1] [0] [] [0] [] 1 ![1, 28]

variable [Facts₀]

def scatter_S1600000x28_S500000x1_S500000x28_1_0_0_1 : ScatterDims S1600000x28 S500000x1 S500000x28 where
  updateWindowDims := [1]
  insertedWindowDims := [0]
  scatterDimsToOperandDims := [0]
  indexVectorDim := 1
  wf := scatter_S1600000x28_S500000x1_S500000x28_1_0_0_1_wf
def gather_S1600000x28_S500000x1_S500000x28_1_0_n_n_0_1_128 : GatherDims S1600000x28 S500000x1 S500000x28 where
  offsetDims := [1]
  collapsedSliceDims := [0]
  operandBatchingDims := []
  startIndicesBatchingDims := []
  startIndexMap := [0]
  indexVectorDim := 1
  sliceSizes := ![1, 28]
  wf := gather_S1600000x28_S500000x1_S500000x28_1_0_n_n_0_1_128_wf

class Facts : Prop extends Facts₀ where

variable [Facts]
-- ==== Proof.CopyBlocks.lean ====
/-
  The kernel is a copy.  Its one launch walks 125 grid points; at point `t` the body loads the 4000 × 28 block
  `t` of its operand (rows `4000 t … 4000 t + 3999`, all 28 columns), passes it through a shape cast to its own shape,
  and stores it whole into the output's block `t`, which sits at the same rows.  So what point `t` writes back is
  block `t` of the OPERAND ARRAY ITSELF; the 125 blocks tile the 500 000 rows; hence the output array ends equal to
  the operand array as the launch finds it.  (The operand array is what the operations before the launch left
  there; which function of the arguments that is, is the next file's business.)  Everything here holds at any
  float instance.
-/
import proofs.«159582_g14817637171539_cont_week2b_513_58_alg».proof.Proof.Gen.KernelIdeal.Value
import Idealize.ShloMosaic.Lib.Pipeline.Value

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's rectangles start at the block's origin. -/
theorem origin : (![0, 0] : Fin 2 → Nat) = fun _ => 0 := funext fun a => by fin_cases a <;> rfl

/-- The operand array as the launch finds it, index by index. -/
abbrev operand (c : Dev nD) : S500000x28.Idx → Elt F .f32 := V m c main_v7

/-- What the body stores is what it loaded: a shape cast between equal shapes moves nothing. -/
theorem stored_eq (x0 : Vec F S4000x28 .f32) : k0_pay1 x0 = x0 :=
  funext fun y => shapeCast_apply _ _ y y rfl

/-- At every grid point the operand's block index and the output's are the same pair `(t, 0)`, `t ≤ 124`. -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) ≤ 124 ∧ win0_1.index t (1 : Fin 2) = 0 :=
  (by decide +kernel : ∀ t : Fin grid0.N, _)

/-- Each of the 125 row blocks is some point's. -/
theorem every_block : ∀ q : Fin 125, ∃ t : Fin cfg0.N, win0_1.index t = ![q.val, 0] :=
  (by decide +kernel : ∀ q : Fin 125, ∃ t : Fin grid0.N, win0_1.index t = ![q.val, 0])

/-- Point `t` writes back block `t` of the operand array: the stored block is the loaded one, and the output's block
    sits where the operand's does (row `4000 t + y₀`, column `y₁`). -/
theorem flushed_eq (c : Dev nD) (t : Fin cfg0.N) :
    (dats m 0 c).flushed 1 t = ((cfg0.win 1).blk t).view.read (Elt F) (operand m c) := by
  show (cfg0.win 1).cut (grid0.coords t) ((dats m 0 c).after 1 t) = _
  rw [after0_1]
  unfold out0_1
  rw [View.canon_unit_zero origin]
  simp only [View.ld_unit_zero (S := S4000x28) origin]
  rw [stored_eq]
  obtain ⟨e0, e1, -, -⟩ := same_block t
  funext j
  show V m c main_v7 (((cfg0.win 0).blk t).view.emb j) = V m c main_v7 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 4000 + 1 * (j 0).val = win0_1.index t (0 : Fin 2) * 4000 + 1 * (j 0).val; omega
    | ⟨1, _⟩ => show win0_0.index t (1 : Fin 2) * 28 + 1 * (j 1).val = win0_1.index t (1 : Fin 2) * 28 + 1 * (j 1).val; omega
  rw [h0]

/-- An index of the output array is in point `t`'s block iff each coordinate is in the block's range on its axis. -/
theorem mem_block (t : Fin cfg0.N) (i : S500000x28.Idx) :
    i ∈ ((cfg0.win 1).blk t).view.set ↔ ∀ a : Fin 2, win0_1.index t a * S4000x28.size a ≤ (i a).val ∧ (i a).val < win0_1.index t a * S4000x28.size a + S4000x28.size a := by
  show i ∈ ((View.whole main_v8).slice (win0_1.rect t)).set ↔ _
  rw [View.set_slice_whole, Rect.mem_set_unit]
  exact Iff.rfl

/-- The blocks tile the array: row `r` lies in the block of the point whose block index is `r / 4000`. -/
theorem covered (i : S500000x28.Idx) :
    ∃ t : Fin cfg0.N, (cfg0.win 1).flush t = true ∧ i ∈ ((cfg0.win 1).blk t).view.set := by
  have hi0 : (i 0).val < 500000 := (i 0).isLt
  have hi1 : (i 1).val < 28 := (i 1).isLt
  obtain ⟨t, ht⟩ := every_block ⟨(i 0).val / 4000, by omega⟩
  have q0 : win0_1.index t (0 : Fin 2) = (i 0).val / 4000 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4000 ≤ (i 0).val ∧ (i 0).val < win0_1.index t (0 : Fin 2) * 4000 + 4000; omega
  | ⟨1, _⟩ => show win0_1.index t (1 : Fin 2) * 28 ≤ (i 1).val ∧ (i 1).val < win0_1.index t (1 : Fin 2) * 28 + 28; omega

/-- So the output array ends holding the operand array. -/
theorem final (c : Dev nD) : (dats m 0 c).arrAt 1 cfg0.N = operand m c :=
  (dats m 0 c).arrAt_eq_of_cover 1 (operand m c) (fun t _ => flushed_eq m c t) covered

/-- The run, read: the result is the operand array as the launch finds it, the arguments are unchanged. -/
theorem run : θ_run defs (onTc (τ := τ) (main (F := F))) ⟨m, fun _ => 0, ρ⟩ fun r => ∀ c : Dev nD,
      r.2.mem ((c : Thread nD τ).loc main_v8) = operand m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Copy

end
-- ==== Proof.GatherBack.lean ====
/-
  Rows scattered into a table and read back.

  A table of 1 600 000 rows of 28 numbers receives 500 000 update rows: update row `k` is ADDED to the table's row
  `idx k` (an index below zero counting from the table's end, `idx k + 1600000`; an index that is still outside
  the table afterwards drops its update; rows hit several times receive the sum of their updates).  The result
  read back is, for every `k`, the UPDATED table's row `idx k` — the not-a-number pattern where that index is
  outside the table.  This file states that result as one function `rowsBack` of the three arrays, at any float
  instance; nothing here is proved about it: both programs of the certificate compute it by the same
  operations in the same order, so no law of arithmetic is needed to compare them.
-/
import Idealize.ShloMosaic.PureOps

noncomputable section

namespace Cert.GatherBack

open Idealize.ShloMosaic

/-! ## The shapes -/

/-- The table: 1 600 000 rows of 28. -/
abbrev Table : Shape := ⟨2, ![1600000, 28]⟩
/-- The 500 000 row indices, -/
abbrev Ids : Shape := ⟨1, ![500000]⟩
/-- the same as a column of one-component index vectors, -/
abbrev IdCol : Shape := ⟨2, ![500000, 1]⟩
/-- and the 500 000 rows of 28 that are added, and read back. -/
abbrev Rows : Shape := ⟨2, ![500000, 28]⟩
/-- A single number, -/
abbrev Pt : Shape := ⟨0, ![]⟩
/-- a vector of one, -/
abbrev Single : Shape := ⟨1, ![1]⟩
/-- and a one-by-one matrix. -/
abbrev SingleCol : Shape := ⟨2, ![1, 1]⟩

/-- Update row `k` (axis 1 of the updates its window) goes to the table row its index names (axis 0 of the table,
    absent from the window). -/
def scatterRows : ScatterDims Table IdCol Rows where
  updateWindowDims := [1]
  insertedWindowDims := [0]
  scatterDimsToOperandDims := [0]
  indexVectorDim := 1

/-- Result row `k` is the one-row, 28-column slice of the table that starts at the row its index names. -/
def gatherRows : GatherDims Table IdCol Rows where
  offsetDims := [1]
  collapsedSliceDims := [0]
  operandBatchingDims := []
  startIndicesBatchingDims := []
  startIndexMap := [0]
  indexVectorDim := 1
  sliceSizes := ![1, 28]

variable {F : FTy → Type} [FloatOps F]

/-! ## The function -/

/-- The indices as the table is addressed with them: `i + 1600000` where `i < 0`, else `i`; laid out as a column of
    one-component index vectors. -/
def wrapped (idx : IVec Ids 32) : IVec IdCol 32 :=
  broadcastInDim IdCol ![0] (by decide)
    (select (cmpi .slt idx (broadcastInDim Ids ![] (by decide) (constantI Pt 32 0#32)))
      (addi idx (broadcastInDim Ids ![] (by decide) (constantI Pt 32 1600000#32))) idx)

/-- The table after the updates: row `r` is `mem r` plus the sum of the update rows whose index is `r`. -/
def updated (mem : FVec F Table .f32) (idx : IVec Ids 32) (val : FVec F Rows .f32) : FVec F Table .f32 :=
  Host.scatterAdd scatterRows mem (wrapped idx) val

/-- Whether an index names a row of the table: `0 ≤ i ≤ 1599999`, the conjunction taken over the index vector's one
    component. -/
def inTable (col : IVec IdCol 32) : IVec Ids 1 :=
  Host.reduce (axes := [1]) IntOp.andi
    (andi (cmpi .sge col (broadcastInDim IdCol ![] (by decide) (constantI Pt 32 0#32)))
      (cmpi .sle col (broadcastInDim IdCol ![0, 1] (by decide)
        (broadcastInDim SingleCol ![1] (by decide) (constantI Single 32 1599999#32)))))
    (constantI Pt 1 1#1) (by decide) (by decide)

/-- Rows of a table looked up at the indices: row `k` is the table's row `idx k`, and the not-a-number pattern where
    that index is outside the table. -/
def lookup (tbl : FVec F Table .f32) (idx : IVec Ids 32) : FVec F Rows .f32 :=
  select (broadcastInDim Rows ![0] (by decide) (inTable (wrapped idx)))
    (Host.gather gatherRows tbl (wrapped idx))
    (broadcastInDim Rows ![] (by decide) (constant Pt .f32 0x7FC00000#32))

/-- What is read back: the UPDATED table's rows at the indices the updates went to. -/
def rowsBack (mem : FVec F Table .f32) (idx : IVec Ids 32) (val : FVec F Rows .f32) : FVec F Rows .f32 :=
  lookup (updated mem idx val) idx

end Cert.GatherBack

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.HostBefore.lean ====
/-
  What the copy's operand holds.  Before its one launch the kernel's program runs the same thirty-two array
  operations as the reference, in the same order, into buffers of the same names: nine that wrap the indices below zero
  by the table's length and add the update rows into the table at them, then the twenty-three of the row lookup (the
  wrap again, the range test `0 ≤ i ≤ 1599999`, the rows gathered from the UPDATED table, the not-a-number pattern
  where the test fails).  After the nine the table's buffer holds `updated`; after the twenty-three the lookup's
  result buffer — the launch's operand — holds `lookup` of that: `rowsBack` of the three arguments as launched.  At any
  float instance.
-/
import proofs.«159582_g14817637171539_cont_week2b_513_58_alg».proof.Proof.Gen.KernelIdeal.Frame
import proofs.«159582_g14817637171539_cont_week2b_513_58_alg».proof.Proof.GatherBack
import Idealize.ShloMosaic.Lib.StableHlo.Run
import Idealize.ShloMosaic.Lib.Pipeline.Frame
import proofs.«159582_g14817637171539_cont_week2b_513_58_alg».proof.Proof.LibTypedRef

noncomputable section

namespace Cert.KernelIdeal.Before

open Cert.KernelIdeal Cert.KernelIdeal.Gen Idealize.ShloMosaic Idealize.ShloMosaic.TcCoe Idealize.SL.Sem

variable {F : FTy → Type} [FloatOps F]

/-- The operations before the launch are the nine, then the lookup's twenty-three. -/
theorem before_eq : List.flatten [(hostOps0 : List (HloOp τ sig (Elt F))), hostOps0_1] = hostOps0 ++ hostOps0_1 := by
  simp only [List.flatten_cons, List.flatten_nil, List.append_nil]

/-! ## What they leave, stage by stage -/

attribute [local irreducible] Host.reduce Host.gather Host.scatterAdd in
/-- After the first nine, from any contents, the table's buffer holds the updated table. -/
theorem update_eq (W : Valuation τ sig (Elt F)) :
    (StableHlo.after hostOps0 W (main_v6 : DevRef τ sig) : S1600000x28.Idx → Elt F .f32)
      = Cert.GatherBack.updated (W (main_arg0 : DevRef τ sig)) (W (main_arg1 : DevRef τ sig)) (W (main_arg2 : DevRef τ sig)) := by
  after_results
  rfl

/-- None of the nine writes the indices. -/
theorem update_arg1 (W : Valuation τ sig (Elt F)) : StableHlo.after hostOps0 W (main_arg1 : DevRef τ sig) = W (main_arg1 : DevRef τ sig) := by
  after_results

set_option maxHeartbeats 4000000 in
attribute [local irreducible] Host.reduce Host.gather Host.scatterAdd in
/-- After the lookup's twenty-three, from any contents, its result buffer holds the rows of the table's buffer looked
    up at the indices: each of its operations writes its result into a buffer that carries the value's type and the
    next reads it back, there and back the identity.  (The gather and the conjunction are kept closed: the equation
    never looks inside.) -/
theorem look_eq (W : Valuation τ sig (Elt F)) :
    (StableHlo.after hostOps0_1 W (main_v7 : DevRef τ sig) : S500000x28.Idx → Elt F .f32)
      = Cert.GatherBack.lookup (W (main_v6 : DevRef τ sig)) (W (main_arg1 : DevRef τ sig)) := by
  after_results
  simp only [Cert.LibTypedRef.ofBuf_toBuf]
  rfl

/-- After all thirty-two the lookup's result buffer holds `rowsBack` of the three arguments' contents. -/
theorem rows_eq (W : Valuation τ sig (Elt F)) :
    (StableHlo.after (List.flatten [(hostOps0 : List (HloOp τ sig (Elt F))), hostOps0_1]) W (main_v7 : DevRef τ sig) : S500000x28.Idx → Elt F .f32)
      = Cert.GatherBack.rowsBack (W (main_arg0 : DevRef τ sig)) (W (main_arg1 : DevRef τ sig)) (W (main_arg2 : DevRef τ sig)) := by
  rw [before_eq, StableHlo.after_append, look_eq, update_eq, update_arg1]
  rfl

variable (m : (ℓ : Loc nD τ sig) → Buf (Elt F) ℓ)

/-- The launch's operand array, as the launch finds it, is `rowsBack` of the arguments as launched. -/
theorem operand_eq (c : Dev nD) :
    (V m c main_v7 : S500000x28.Idx → Elt F .f32)
      = Cert.GatherBack.rowsBack (m ((c : Thread nD τ).loc main_arg0)) (m ((c : Thread nD τ).loc main_arg1)) (m ((c : Thread nD τ).loc main_arg2)) :=
  rows_eq (fun b => m (c, b))

end Cert.KernelIdeal.Before

end
-- ==== Proof.RefStraight.lean ====
/-
  The reference's run, read back.  The reference is a straight line of thirty-two array operations and no
  kernel: nine of its own (the indices below zero wrapped by the table's length, laid out as a column; the update rows
  added into the table at them) and the twenty-three of the row lookup it calls (the same wrap, the range test
  `0 ≤ i ≤ 1599999`, the rows gathered from the UPDATED table, the not-a-number pattern selected where the test
  fails).  Listed in order, with the lookup's operations written at the call site over the buffers the call names,
  they ARE the program; run in order from any memory they end, every buffer holding the composition of the
  operations that wrote it: after the nine the table's buffer holds `updated`, after the twenty-three the result
  buffer holds `lookup` of that, which is `rowsBack` of the three arguments.
-/
import proofs.«159582_g14817637171539_cont_week2b_513_58_alg».proof.Proof.Gen.ReferenceIdeal
import proofs.«159582_g14817637171539_cont_week2b_513_58_alg».proof.Proof.GatherBack
import Idealize.ShloMosaic.Lib.StableHlo.Run
import Idealize.ShloMosaic.Lib.Pipeline.Frame
import proofs.«159582_g14817637171539_cont_week2b_513_58_alg».proof.Proof.LibTypedRef

noncomputable section

namespace Cert.ReferenceIdeal.Straight

open Cert.ReferenceIdeal Cert.ReferenceIdeal.Gen Idealize.ShloMosaic Idealize.ShloMosaic.TcCoe Idealize.SL.Sem

variable {F : FTy → Type} [FloatOps F]

/-- The program's own nine operations: the wrapped indices as a column, and the update rows added into the table. -/
abbrev update : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg1 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 1600000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg1 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg1 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.ternary main_arg0 main_v5 main_arg2 main_v6 ((fun x i u => Host.scatterAdd scatter_S1600000x28_S500000x1_S500000x28_1_0_0_1 x i u) : (⟨S1600000x28, .f32⟩ : BufTy).Contents (Elt F) → (⟨S500000x1, .i32⟩ : BufTy).Contents (Elt F) → (⟨S500000x28, .f32⟩ : BufTy).Contents (Elt F) → (⟨S1600000x28, .f32⟩ : BufTy).Contents (Elt F)) ]

/-- The lookup's twenty-three, over the buffers its call names: the wrapped indices again, the range test, the gather
    from the updated table, the select. -/
abbrev look : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S500000, .i32⟩) (broadcastInDim S500000 ![] bcast_S_S500000),
    StableHlo.TRef.binary (.of main_arg1 : StableHlo.TRef sig ⟨S500000, .i32⟩) (.of main_call0_v0 : StableHlo.TRef sig ⟨S500000, .i32⟩) (.of main_call0_v1 : StableHlo.TRef sig ⟨S500000, .i1⟩) (cmpi .slt),
    StableHlo.TRef.nullary (.of main_call0_c_0 : StableHlo.TRef sig ⟨S_, .i32⟩) (constantI S_ 32 1600000#32),
    StableHlo.TRef.unary (.of main_call0_c_0 : StableHlo.TRef sig ⟨S_, .i32⟩) (.of main_call0_v2 : StableHlo.TRef sig ⟨S500000, .i32⟩) (broadcastInDim S500000 ![] bcast_S_S500000),
    StableHlo.TRef.binary (.of main_arg1 : StableHlo.TRef sig ⟨S500000, .i32⟩) (.of main_call0_v2 : StableHlo.TRef sig ⟨S500000, .i32⟩) (.of main_call0_v3 : StableHlo.TRef sig ⟨S500000, .i32⟩) addi,
    StableHlo.TRef.ternary (.of main_call0_v1 : StableHlo.TRef sig ⟨S500000, .i1⟩) (.of main_call0_v3 : StableHlo.TRef sig ⟨S500000, .i32⟩) (.of main_arg1 : StableHlo.TRef sig ⟨S500000, .i32⟩) (.of main_call0_v4 : StableHlo.TRef sig ⟨S500000, .i32⟩) select,
    StableHlo.TRef.unary main_call0_call0.v0 (.of main_call0_v5 : StableHlo.TRef sig ⟨S500000x1, .i32⟩) (broadcastInDim S500000x1 ![0] bcast_S500000_S500000x1_0),
    StableHlo.TRef.nullary (.of main_call0_c_1 : StableHlo.TRef sig ⟨S1, .i32⟩) (constantI S1 32 1599999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S500000x1, .i32⟩) (broadcastInDim S500000x1 ![] bcast_S_S500000x1),
    StableHlo.TRef.binary (.of main_call0_v5 : StableHlo.TRef sig ⟨S500000x1, .i32⟩) (.of main_call0_v6 : StableHlo.TRef sig ⟨S500000x1, .i32⟩) (.of main_call0_v7 : StableHlo.TRef sig ⟨S500000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S500000x1, .i32⟩) (broadcastInDim S500000x1 ![0, 1] bcast_S1x1_S500000x1_0_1),
    StableHlo.TRef.binary (.of main_call0_v5 : StableHlo.TRef sig ⟨S500000x1, .i32⟩) (.of main_call0_v9 : StableHlo.TRef sig ⟨S500000x1, .i32⟩) (.of main_call0_v10 : StableHlo.TRef sig ⟨S500000x1, .i1⟩) (cmpi .sle),
    StableHlo.TRef.binary (.of main_call0_v7 : StableHlo.TRef sig ⟨S500000x1, .i1⟩) (.of main_call0_v10 : StableHlo.TRef sig ⟨S500000x1, .i1⟩) (.of main_call0_v11 : StableHlo.TRef sig ⟨S500000x1, .i1⟩) andi,
    StableHlo.TRef.nullary (.of main_call0_c_3 : StableHlo.TRef sig ⟨S_, .i1⟩) (constantI S_ 1 1#1),
    StableHlo.TRef.binary (.of main_call0_v11 : StableHlo.TRef sig ⟨S500000x1, .i1⟩) (.of main_call0_c_3 : StableHlo.TRef sig ⟨S_, .i1⟩) (.of main_call0_v12 : StableHlo.TRef sig ⟨S500000, .i1⟩) (fun x v => Host.reduce IntOp.andi x v reducesTo_S500000x1_S500000_d1 h_S_),
    StableHlo.TRef.binary (.of main_v6 : StableHlo.TRef sig ⟨S1600000x28, .f32⟩) (.of main_call0_v5 : StableHlo.TRef sig ⟨S500000x1, .i32⟩) (.of main_call0_v13 : StableHlo.TRef sig ⟨S500000x28, .f32⟩) (fun x i => Host.gather gather_S1600000x28_S500000x1_S500000x28_1_0_n_n_0_1_128 x i),
    StableHlo.TRef.unary (.of main_call0_v12 : StableHlo.TRef sig ⟨S500000, .i1⟩) (.of main_call0_v14 : StableHlo.TRef sig ⟨S500000x28, .i1⟩) (broadcastInDim S500000x28 ![0] bcast_S500000_S500000x28_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S500000x28, .f32⟩) (broadcastInDim S500000x28 ![] bcast_S_S500000x28),
    StableHlo.TRef.ternary (.of main_call0_v14 : StableHlo.TRef sig ⟨S500000x28, .i1⟩) (.of main_call0_v13 : StableHlo.TRef sig ⟨S500000x28, .f32⟩) (.of main_call0_v15 : StableHlo.TRef sig ⟨S500000x28, .f32⟩) (.of main_v7 : StableHlo.TRef sig ⟨S500000x28, .f32⟩) select ]

/-- The thirty-two operations in order. -/
abbrev ops : List (HloOp τ sig (Elt F)) := update ++ look

/-! ## The program is the line -/

-- thirty-two binds re-associated
set_option maxRecDepth 2048 in
/-- The program is that straight line: the lookup's and the select's definitions unfolded at their calls, both sides
    are one chain of steps once the sequencing is re-associated. -/
theorem main_eq (c : Dev nD) : main (F := F) c = StableHlo.seq ops := by
  simp only [main, fn_take.body, fn_where.body, ops, update, look, List.cons_append, List.nil_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-! ## What the line leaves, stage by stage -/

attribute [local irreducible] Host.reduce Host.gather Host.scatterAdd in
/-- After the first nine, from any contents, the table's buffer holds the updated table. -/
theorem update_eq (V : Valuation τ sig (Elt F)) :
    (StableHlo.after update V (main_v6 : DevRef τ sig) : S1600000x28.Idx → Elt F .f32)
      = Cert.GatherBack.updated (V (main_arg0 : DevRef τ sig)) (V (main_arg1 : DevRef τ sig)) (V (main_arg2 : DevRef τ sig)) := by
  after_results
  rfl

/-- None of the nine writes an argument. -/
theorem update_arg0 (V : Valuation τ sig (Elt F)) : StableHlo.after update V (main_arg0 : DevRef τ sig) = V (main_arg0 : DevRef τ sig) := by
  after_results
theorem update_arg1 (V : Valuation τ sig (Elt F)) : StableHlo.after update V (main_arg1 : DevRef τ sig) = V (main_arg1 : DevRef τ sig) := by
  after_results
theorem update_arg2 (V : Valuation τ sig (Elt F)) : StableHlo.after update V (main_arg2 : DevRef τ sig) = V (main_arg2 : DevRef τ sig) := by
  after_results

set_option maxHeartbeats 4000000 in
attribute [local irreducible] Host.reduce Host.gather Host.scatterAdd in
/-- After the lookup's twenty-three, from any contents, the result buffer holds the rows of the table's buffer looked up
    at the indices: each of its operations writes its result into a buffer that carries the value's type and the next
    reads it back, there and back the identity.  (The gather and the conjunction are kept closed: the equation never
    looks inside.) -/
theorem look_eq (V : Valuation τ sig (Elt F)) :
    (StableHlo.after look V (main_v7 : DevRef τ sig) : S500000x28.Idx → Elt F .f32)
      = Cert.GatherBack.lookup (V (main_v6 : DevRef τ sig)) (V (main_arg1 : DevRef τ sig)) := by
  after_results
  simp only [Cert.LibTypedRef.ofBuf_toBuf]
  rfl

/-- None of the twenty-three writes an argument. -/
theorem look_arg0 (V : Valuation τ sig (Elt F)) : StableHlo.after look V (main_arg0 : DevRef τ sig) = V (main_arg0 : DevRef τ sig) := by
  after_results
theorem look_arg1 (V : Valuation τ sig (Elt F)) : StableHlo.after look V (main_arg1 : DevRef τ sig) = V (main_arg1 : DevRef τ sig) := by
  after_results
theorem look_arg2 (V : Valuation τ sig (Elt F)) : StableHlo.after look V (main_arg2 : DevRef τ sig) = V (main_arg2 : DevRef τ sig) := by
  after_results

/-- After the whole line the result buffer holds `rowsBack` of the three arguments' contents. -/
theorem result_eq (V : Valuation τ sig (Elt F)) :
    (StableHlo.after ops V (main_v7 : DevRef τ sig) : S500000x28.Idx → Elt F .f32)
      = Cert.GatherBack.rowsBack (V (main_arg0 : DevRef τ sig)) (V (main_arg1 : DevRef τ sig)) (V (main_arg2 : DevRef τ sig)) := by
  show (StableHlo.after (update ++ look) V (main_v7 : DevRef τ sig) : S500000x28.Idx → Elt F .f32) = _
  rw [StableHlo.after_append, look_eq, update_eq, update_arg1]
  rfl

theorem arg0_kept (V : Valuation τ sig (Elt F)) : StableHlo.after ops V (main_arg0 : DevRef τ sig) = V (main_arg0 : DevRef τ sig) := by
  show StableHlo.after (update ++ look) V (main_arg0 : DevRef τ sig) = _
  rw [StableHlo.after_append, look_arg0, update_arg0]
theorem arg1_kept (V : Valuation τ sig (Elt F)) : StableHlo.after ops V (main_arg1 : DevRef τ sig) = V (main_arg1 : DevRef τ sig) := by
  show StableHlo.after (update ++ look) V (main_arg1 : DevRef τ sig) = _
  rw [StableHlo.after_append, look_arg1, update_arg1]
theorem arg2_kept (V : Valuation τ sig (Elt F)) : StableHlo.after ops V (main_arg2 : DevRef τ sig) = V (main_arg2 : DevRef τ sig) := by
  show StableHlo.after (update ++ look) V (main_arg2 : DevRef τ sig) = _
  rw [StableHlo.after_append, look_arg2, update_arg2]

/-! ## The run -/

/-- On the one device, at any float instance, from any memory with zero counters: every weakly fair execution of the
    reference terminates, its result `rowsBack` of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = Cert.GatherBack.rowsBack (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (result_eq _),
      (h c main_arg0).trans (arg0_kept _),
      (h c main_arg1).trans (arg1_kept _),
      (h c main_arg2).trans (arg2_kept _)⟩)
    (StableHlo.run_seq scopedRefs_eq scopedSems_eq defs main (fun _ => ops) main_eq (fun _ => ops_sub) m ρ)

end Cert.ReferenceIdeal.Straight

end
-- ==== Proof.lean ====
/-
  The kernel adds 500 000 update rows into a table of 1 600 000 rows at given row indices and reads the updated rows
  back at the same indices; so does the reference.  The kernel's program computes the rows with the very operations
  of the reference, in the same order (`Proof/HostBefore.lean`, `Proof/RefStraight.lean`: on both sides the result of
  those operations is the one function `rowsBack` of `Proof/GatherBack.lean`), and then passes them through one
  launch that copies its operand to its output block by block (`Proof/CopyBlocks.lean`).  A copy changes nothing,
  at any float instance: no law of arithmetic, and no finiteness of the inputs, is needed — the two results are the
  same expression of arguments that agree.

  The claims: the two kernel programs' frames are the generated ones; the reference's frame is its run with the
  result dropped; the idealization rewrote nothing, so `preserves` is trivial; `algebraic` sets the kernel's run (the
  output is the operand, the operand is `rowsBack` of the arguments) beside the reference's run (`rowsBack` of
  arguments that agree with the kernel's).
-/
import proofs.«159582_g14817637171539_cont_week2b_513_58_alg».proof.Defs
import proofs.«159582_g14817637171539_cont_week2b_513_58_alg».proof.Proof.Gen.Kernel
import proofs.«159582_g14817637171539_cont_week2b_513_58_alg».proof.Proof.Gen.Kernel.Frame
import proofs.«159582_g14817637171539_cont_week2b_513_58_alg».proof.Proof.Gen.KernelIdeal
import proofs.«159582_g14817637171539_cont_week2b_513_58_alg».proof.Proof.Gen.KernelIdeal.Frame
import proofs.«159582_g14817637171539_cont_week2b_513_58_alg».proof.Proof.Gen.ReferenceIdeal
import proofs.«159582_g14817637171539_cont_week2b_513_58_alg».proof.Proof.Gen.Pre_finite_inputs
import proofs.«159582_g14817637171539_cont_week2b_513_58_alg».proof.Proof.CopyBlocks
import proofs.«159582_g14817637171539_cont_week2b_513_58_alg».proof.Proof.HostBefore
import proofs.«159582_g14817637171539_cont_week2b_513_58_alg».proof.Proof.RefStraight
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to `rowsBack` of its arguments with the arguments unchanged; the frame keeps the second half. -/
theorem frame_reference : Cert.frame_ReferenceIdeal := fun m ρ _ =>
  (θ_run Cert.ReferenceIdeal.defs _ _).mono (fun _ h c => (h c).2) (Cert.ReferenceIdeal.Straight.run (F := Ideal) m ρ)

/-- Both programs end with `rowsBack` of their arguments: the kernel's output array is its launch's operand, which
    the operations before the launch left at `rowsBack` of the arguments; the reference's result is `rowsBack` of its
    own arguments, which agree with the kernel's. -/
theorem algebraic : Cert.algebraic_KernelIdeal_ReferenceIdeal := by
  intro m ρ m' ρ' _ hagree
  refine ⟨fun c => Cert.GatherBack.rowsBack (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Before.operand_eq m c), (h c).2⟩)
      (Cert.KernelIdeal.Copy.run (F := Ideal) m ρ)
  · refine (θ_run Cert.ReferenceIdeal.defs _ _).mono (fun _ h c => ⟨(h c).1.trans ?_, (h c).2⟩)
      (Cert.ReferenceIdeal.Straight.run (F := Ideal) m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
